-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S2x600000 : S_.BroadcastsInDim S2x600000 (![] : Fin 0 → Fin S2x600000.rank)
  reducesTo_S2x600000_S_d0_1 : S2x600000.ReducesTo [0, 1] S_

variable [Facts]

def fn {F : FTy → Type} [FloatOps F] (main_arg0 : FVec F S100000x128 .f32) (main_arg1 : IVec S2x600000 32) (main_arg2 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_c_2 : IVec S_ 32 := constantI S_ 32 4294867296#32
  let main_v9 : IVec S2x600000 32 := broadcastInDim S2x600000 ![] bcast_S_S2x600000 main_c_2
  let main_v10 : IVec S2x600000 1 := cmpi .sge main_arg1 main_v9
  let main_c_3 : IVec S_ 32 := constantI S_ 32 100000#32
  let main_v11 : IVec S2x600000 32 := broadcastInDim S2x600000 ![] bcast_S_S2x600000 main_c_3
  let main_v12 : IVec S2x600000 1 := cmpi .slt main_arg1 main_v11
  let main_v13 : IVec S2x600000 1 := andi main_v10 main_v12
  let main_c_4 : IVec S_ 1 := constantI S_ 1 1#1
  let main_v14 : IVec S_ 1 := (fun x v => Host.reduce IntOp.andi x v reducesTo_S2x600000_S_d0_1 h_S_) main_v13 main_c_4
  let main_v15 : IVec S_ 1 := andi main_v8 main_v14
  main_v15
-- ==== Kernel.lean ====
abbrev S100000x128 : Shape := ⟨2, ![100000, 128]⟩
abbrev S2x600000 : Shape := ⟨2, ![2, 600000]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S6000x128 : Shape := ⟨2, ![6000, 128]⟩
abbrev S6000x1 : Shape := ⟨2, ![6000, 1]⟩
abbrev S6000 : Shape := ⟨1, ![6000]⟩

abbrev nBuf : Space → Nat
  | .hbm => 56
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S1x600000, .i32⟩
  | .hbm, ⟨4, _⟩ => ⟨S600000, .i32⟩
  | .hbm, ⟨5, _⟩ => ⟨S1x600000, .i32⟩
  | .hbm, ⟨6, _⟩ => ⟨S600000, .i32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S1, .i32⟩
  | .hbm, ⟨16, _⟩ => ⟨S_, .i32⟩
  | .hbm, ⟨17, _⟩ => ⟨S600000x1, .i32⟩
  | .hbm, ⟨18, _⟩ => ⟨S600000x1, .i1⟩
  | .hbm, ⟨19, _⟩ => ⟨S1x1, .i32⟩
  | .hbm, ⟨20, _⟩ => ⟨S600000x1, .i32⟩
  | .hbm, ⟨21, _⟩ => ⟨S600000x1, .i1⟩
  | .hbm, ⟨22, _⟩ => ⟨S600000x1, .i1⟩
  | .hbm, ⟨23, _⟩ => ⟨S_, .i1⟩
  | .hbm, ⟨24, _⟩ => ⟨S600000, .i1⟩
  | .hbm, ⟨25, _⟩ => ⟨S600000x128, .f32⟩
  | .hbm, ⟨26, _⟩ => ⟨S600000x128, .i1⟩
  | .hbm, ⟨27, _⟩ => ⟨S_, .f32⟩
  | .hbm, ⟨28, _⟩ => ⟨S600000x128, .f32⟩
  | .hbm, ⟨29, _⟩ => ⟨S600000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S1, .i32⟩
  | .hbm, ⟨39, _⟩ => ⟨S_, .i32⟩
  | .hbm, ⟨40, _⟩ => ⟨S600000x1, .i32⟩
  | .hbm, ⟨41, _⟩ => ⟨S600000x1, .i1⟩
  | .hbm, ⟨42, _⟩ => ⟨S1x1, .i32⟩
  | .hbm, ⟨43, _⟩ => ⟨S600000x1, .i32⟩
  | .hbm, ⟨44, _⟩ => ⟨S600000x1, .i1⟩
  | .hbm, ⟨45, _⟩ => ⟨S600000x1, .i1⟩
  | .hbm, ⟨46, _⟩ => ⟨S_, .i1⟩
  | .hbm, ⟨47, _⟩ => ⟨S600000, .i1⟩
  | .hbm, ⟨48, _⟩ => ⟨S600000x128, .f32⟩
  | .hbm, ⟨49, _⟩ => ⟨S600000x128, .i1⟩
  | .hbm, ⟨50, _⟩ => ⟨S_, .f32⟩
  | .hbm, ⟨51, _⟩ => ⟨S600000x128, .f32⟩
  | .hbm, ⟨52, _⟩ => ⟨S600000x128, .f32⟩
  | .hbm, ⟨53, _⟩ => ⟨S128x128, .f32⟩
  | .hbm, ⟨54, _⟩ => ⟨S600000x1, .f32⟩
  | .hbm, ⟨55, _⟩ => ⟨S600000, .f32⟩
  | .local _ .vmem, ⟨0, _⟩ => ⟨S6000x128, .f32⟩
  | .local _ .vmem, ⟨1, _⟩ => ⟨S6000x128, .f32⟩
  | .local _ .vmem, ⟨2, _⟩ => ⟨S6000x128, .f32⟩
  | .local _ .vmem, ⟨3, _⟩ => ⟨S6000x128, .f32⟩
  | .local _ .vmem, ⟨4, _⟩ => ⟨S128x128, .f32⟩
  | .local _ .vmem, ⟨5, _⟩ => ⟨S6000x1, .f32⟩
  | .local _ .vmem, ⟨6, _⟩ => ⟨S6000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  transposes_S128x128_S128x128_1_0 : S128x128.Transposes [1, 0] S128x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S6000x128_S6000 : S6000x128.Reduces [1] S6000
  shapeCasts_S6000_S6000x1 : S6000.ShapeCasts S6000x1
  inb_S6000x1_S6000x1_0_0 : ∀ a, (![0, 0] : Fin 2 → Nat) a + S6000x1.size a ≤ S6000x1.size a
  h_S6000x1 : 0 < S6000x1.numel
  shapeCasts_S600000x1_S600000 : S600000x1.ShapeCasts S600000
  gather_S100000x128_S600000x1_S600000x128_1_0_n_n_0_1_1128_wf : GatherDims.WF S100000x128 S600000x1 S600000x128 [1] [0] [] [0] [] 1 ![1, 128]
  dot_S6000x128_S128x128_S6000x128_1_0_0_1_n_n_wf : DotDims.WF S6000x128 S128x128 S6000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .f32 = 32 ∨ (Rect.block (s := S600000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S600000x128.size a
  hwx0_1 : ∀ i : grid0.Coords, EltTy.bits .f32 = 32 ∨ (Rect.block (s := S600000x128) S6000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6000x1.size a ≤ S600000x1.size a
  hwx0_3 : ∀ i : grid0.Coords, EltTy.bits .f32 = 32 ∨ (Rect.block (s := S600000x1) S6000x1.size (cc0_transform_3 i) (hinb0_3 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf

abbrev win0_0 : Pipeline.Window sig grid0 :=
  Pipeline.Window.ofSpec (Memref.whole main_v4) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S6000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩

abbrev nBuf : Space → Nat
  | .hbm => 38
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S1x600000, .i32⟩
  | .hbm, ⟨4, _⟩ => ⟨S600000, .i32⟩
  | .hbm, ⟨5, _⟩ => ⟨S_, .i32⟩
  | .hbm, ⟨6, _⟩ => ⟨S600000, .i32⟩
  | .hbm, ⟨7, _⟩ => ⟨S600000, .i1⟩
  | .hbm, ⟨8, _⟩ => ⟨S_, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S600000x1, .i32⟩
  | .hbm, ⟨13, _⟩ => ⟨S600000x128, .f32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S128x128, .f32⟩
  | .hbm, ⟨26, _⟩ => ⟨S600000x128, .f32⟩
  | .hbm, ⟨27, _⟩ => ⟨S600000x128, .f32⟩
  | .hbm, ⟨28, _⟩ => ⟨S_, .f32⟩
  | .hbm, ⟨29, _⟩ => ⟨S600000, .f32⟩
  | .hbm, ⟨30, _⟩ => ⟨S600000, .f32⟩
  | .hbm, ⟨31, _⟩ => ⟨S600000, .f32⟩
  | .hbm, ⟨32, _⟩ => ⟨S_, .f32⟩
  | .hbm, ⟨33, _⟩ => ⟨S600000, .f32⟩
  | .hbm, ⟨34, _⟩ => ⟨S600000, .f32⟩
  | .hbm, ⟨35, _⟩ => ⟨S_, .f32⟩
  | .hbm, ⟨36, _⟩ => ⟨S600000, .f32⟩
  | .hbm, ⟨37, _⟩ => ⟨S600000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  transposes_S128x128_S128x128_1_0 : S128x128.Transposes [1, 0] S128x128
  reducesTo_S600000x128_S600000_d1 : S600000x128.ReducesTo [1] S600000
  h_S_ : 0 < S_.numel
  gather_S100000x128_S600000x1_S600000x128_1_0_n_n_0_1_1128_wf : GatherDims.WF S100000x128 S600000x1 S600000x128 [1] [0] [] [0] [] 1 ![1, 128]
  dot_S600000x128_S128x128_S600000x128_1_0_0_1_n_n_wf : DotDims.WF S600000x128 S128x128 S600000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf

class Facts : Prop extends Facts₀ where

variable [Facts]
-- ==== Proof.Score.lean ====
/-
  The specification both programs meet. For edge r, with gathered source rows a, gathered destination rows b
  (both [600000, 128]) and the transposed relation matrix w ([128, 128]):

      score r = logistic ( Σ_k a[r, k] · ( Σ_j b[r, j] · w[j, k] ) ).

  The kernel computes the inner sum as a matrix product of a 6000-row block with w (the change of float
  format before it is the identity on the extended reals), the outer sum as a lane reduction, and the
  logistic as one operation; the reference computes a matrix product, a row sum from zero, and
  1 / (1 + exp (−x)). No rearrangement of a sum is involved, so no finiteness is needed here.

  Also here: the arithmetic of a wrapped row index. A 32-bit word x with −100000 ≤ x < 100000 (signed),
  replaced by x + 100000 when negative, lies in [0, 99999]; and a conjunction of bits that are all one is one.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ReduceAll
import Idealize.ShloMosaic.Lib.IdealHost

noncomputable section

namespace Cert.EdgeScore

open Idealize.ShloMosaic Idealize.ShloMosaic.ValueIdx

/-- The score of edge `r`: the logistic of the bilinear form of its two gathered rows. -/
def score (a b : (⟨2, ![600000, 128]⟩ : Shape).Idx → EReal) (w : (⟨2, ![128, 128]⟩ : Shape).Idx → EReal)
    (r : Fin 600000) : EReal :=
  Ideal.logistic (∑ k : Fin 128, a (ix2 r k) * ∑ j : Fin 128, b (ix2 r j) * w (ix2 j k))

/-- The scores as a vector over the edges. -/
def scores (a b : (⟨2, ![600000, 128]⟩ : Shape).Idx → EReal) (w : (⟨2, ![128, 128]⟩ : Shape).Idx → EReal) :
    (⟨1, ![600000]⟩ : Shape).Idx → EReal := fun i => score a b w (i 0)

/-- The scores as a column, the layout the kernel writes. -/
def scoresCol (a b : (⟨2, ![600000, 128]⟩ : Shape).Idx → EReal) (w : (⟨2, ![128, 128]⟩ : Shape).Idx → EReal) :
    (⟨2, ![600000, 1]⟩ : Shape).Idx → EReal := fun y => score a b w (y 0)

/-- A row index in [−N, N), wrapped once when negative, is a row of the table: 0 ≤ x' ≤ N − 1 (N = 100000). -/
theorem wrapped_in_range (x : BitVec 32)
    (hge : IntOp.cmpi .sge x 4294867296#32 = 1#1) (hlt : IntOp.cmpi .slt x 100000#32 = 1#1) :
    IntOp.cmpi .sge (Scalar.select (IntOp.cmpi .slt x 0#32) (IntOp.addi x 100000#32) x) 0#32 = 1#1
      ∧ IntOp.cmpi .sle (Scalar.select (IntOp.cmpi .slt x 0#32) (IntOp.addi x 100000#32) x) 99999#32 = 1#1 := by
  rw [IntOp.cmpi_sge] at hge
  rw [IntOp.cmpi_slt] at hlt
  have hx := x.isLt
  have e1 : (4294867296#32 : BitVec 32).toInt = -100000 := by decide
  have e2 : (100000#32 : BitVec 32).toInt = 100000 := by decide
  have e3 : (0#32 : BitVec 32).toInt = 0 := by decide
  have e4 : (99999#32 : BitVec 32).toInt = 99999 := by decide
  rw [e1] at hge
  rw [e2] at hlt
  by_cases hneg : IntOp.cmpi .slt x 0#32 = 1#1
  · rw [hneg, select_one, IntOp.cmpi_sge, IntOp.cmpi_sle, e3, e4]
    rw [IntOp.cmpi_slt, e3] at hneg
    have ha : (IntOp.addi x 100000#32).toInt = x.toInt + 100000 := by
      unfold IntOp.addi
      rw [BitVec.toInt_add, e2]
      have hp : ((2 ^ 32 : ℕ) : ℤ) = 4294967296 := by norm_num
      exact Int.bmod_eq_of_le_mul_two (by rw [hp]; omega) (by rw [hp]; omega)
    rw [ha]
    omega
  · rw [eq_zero_of_ne_one hneg, select_zero, IntOp.cmpi_sge, IntOp.cmpi_sle, e3, e4]
    rw [IntOp.cmpi_slt, e3] at hneg
    omega

/-- A left fold by `and` from one over bits that are all one is one. -/
theorem foldl_andi_of_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_of_all_one f l fun n hn => h n (List.mem_cons_of_mem _ hn)

/-- A reduction by `and` from the constant one of an array of ones is one at every result index. -/
theorem reduce_andi_of_all_one {s t u : Shape} {axes : List (Fin s.rank)} (x : s.Idx → BitVec 1)
    (init : u.Idx → BitVec 1) (h : s.ReducesTo axes t) (hu : 0 < u.numel) (hinit : ∀ i, init i = 1#1)
    (hx : ∀ i, x i = 1#1) (j : t.Idx) : Host.reduce IntOp.andi x init h hu j = 1#1 := by
  rw [Host.reduce_eq_foldl, hinit]
  exact foldl_andi_of_all_one x _ fun n _ => hx n

end Cert.EdgeScore

end
-- ==== Proof.RefScore.lean ====
/-
  The reference's result is the edge score of its own two gathers and its transposed matrix.

  Read stage by stage from the end: 1 / (1 + exp (−s)) with s = 0 + Σ_k p[i, k], p = g_src · h elementwise,
  h[i, k] = Σ_j g_dst[i, j] · wT[j, k] (a matrix product over the one contracted axis). With the zero and one
  words read as 0 and 1 this is the logistic of the bilinear form, term for term in the order `score` writes it.
-/
import proofs.«417569_j65601330479214_2_alg».proof.Proof.Gen.ReferenceIdeal.Read
import proofs.«417569_j65601330479214_2_alg».proof.Proof.Score

noncomputable section

namespace Cert.ReferenceIdeal.RefScore

open Cert.ReferenceIdeal Cert.ReferenceIdeal.Read Cert.EdgeScore
open Idealize.ShloMosaic Idealize.ShloMosaic.ValueIdx

/-- The row sum's k-th term sits at (i, k). -/
theorem sum_idx (r : Fin 600000) (k : Fin 128) : idx_main_v21 (ix1 r) k = ix2 r k :=
  funext fun a => Fin.ext (by match a with | ⟨0, _⟩ => rfl | ⟨1, _⟩ => rfl)

/-- The product's left factor at (r, k), contraction index j, sits at (r, j). -/
theorem dot_lidx (r : Fin 600000) (k j : Fin 128) : lidx_main_v19 (ix2 r k) j = ix2 r j :=
  funext fun a => Fin.ext (by match a with | ⟨0, _⟩ => rfl | ⟨1, _⟩ => rfl)

/-- Its right factor sits at (j, k). -/
theorem dot_ridx (r : Fin 600000) (k j : Fin 128) : ridx_main_v19 (ix2 r k) j = ix2 j k :=
  funext fun a => Fin.ext (by match a with | ⟨0, _⟩ => rfl | ⟨1, _⟩ => rfl)

/-- The reference's result, as a function of its arguments, is the score vector of its gathers. -/
theorem result_eq (x0 : (⟨S100000x128, .f32⟩ : BufTy).Contents (Elt Ideal)) (x1 : (⟨S2x600000, .i32⟩ : BufTy).Contents (Elt Ideal))
    (x2 : (⟨S128x128, .f32⟩ : BufTy).Contents (Elt Ideal)) :
    val_main_v27 (F := Ideal) x0 x1 x2
      = scores (val_main_v8 (F := Ideal) x0 x1) (val_main_v17 (F := Ideal) x0 x1) (val_main_v18 (F := Ideal) x2) := by
  funext i
  obtain ⟨r, rfl⟩ : ∃ r : Fin 600000, i = ix1 r := ⟨i 0, eq_ix1 i⟩
  rw [val_main_v27_apply, val_main_v26_apply, val_main_cst_4_apply, val_main_v25_apply, val_main_v24_apply,
    val_main_cst_3_apply, val_main_v23_apply, val_main_v22_apply, val_main_v21_apply, val_main_cst_apply]
  simp only [sum_idx, val_main_v20_apply, val_main_v19_apply, dot_lidx, dot_ridx]
  show _ = score _ _ _ r
  unfold score Ideal.logistic
  simp only [Ideal.hostDivf_def, Ideal.addf_def, Ideal.hostUnary_exp_def, Ideal.hostNegf_def, Ideal.negf_def,
    Ideal.mulf_def, Ideal.ofBits_def, Ideal.ofBits_one_f32, Ideal.ofBits_zero_f32, zero_add]

end Cert.ReferenceIdeal.RefScore

end
-- ==== Proof.GatheredRows.lean ====
/-
  What the region is entered with, under the precondition.

  Before the region the program builds, for each of the two rows of the edge list, a column of row numbers (a negative
  number has 100000 added once), looks those rows of the table up, and replaces a looked-up row by the not-a-number
  word wherever the row number is outside [0, 99999]; and it transposes the matrix. The precondition says every entry of
  the edge list lies in [−100000, 100000), so every wrapped number is a row of the table, the test passes on every row,
  nothing is replaced, and the staged arrays are exactly the reference's two gathers and its transposed matrix.
-/
import proofs.«417569_j65601330479214_2_alg».proof.Defs
import proofs.«417569_j65601330479214_2_alg».proof.Proof.Gen.KernelIdeal.Frame
import proofs.«417569_j65601330479214_2_alg».proof.Proof.Gen.ReferenceIdeal.Read
import proofs.«417569_j65601330479214_2_alg».proof.Proof.Gen.Pre_finite_inputs
import proofs.«417569_j65601330479214_2_alg».proof.Proof.Score
import Idealize.ShloMosaic.Lib.StableHlo.Run
import Idealize.ShloMosaic.Lib.ReduceAll
import Idealize.ShloMosaic.PureOps.Ideal

noncomputable section

namespace Cert.KernelIdeal.GatheredRows

open Cert.KernelIdeal Cert.KernelIdeal.Gen Cert.EdgeScore
open Idealize.ShloMosaic Idealize.ShloMosaic.TcCoe Idealize.SL.Sem Idealize.ShloMosaic.StableHlo Idealize.ShloMosaic.ValueIdx

variable (m : (ℓ : Loc nD τ sig) → Buf (Elt Ideal) ℓ)

/-- Row 0 of the edge list (the source row numbers), as a vector. -/
def srcNumbers (e : IVec S2x600000 32) : IVec S600000 32 :=
  shapeCast S600000 (extractStridedSlice S1x600000 ![0, 0] e slices_S2x600000_S1x600000_0_0) shapeCasts_S1x600000_S600000

/-- Row 1 of the edge list (the destination row numbers), as a vector. -/
def dstNumbers (e : IVec S2x600000 32) : IVec S600000 32 :=
  shapeCast S600000 (extractStridedSlice S1x600000 ![1, 0] e slices_S2x600000_S1x600000_1_0) shapeCasts_S1x600000_S600000

/-- Row numbers with a negative one wrapped once, as a column. -/
def wrapped (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 100000#32))) v)

/-- The test "0 ≤ number ≤ 99999", row by row. -/
def isRow (idx : IVec S600000x1 32) : IVec S600000 1 :=
  Host.reduce IntOp.andi
    (andi (cmpi .sge idx (broadcastInDim S600000x1 ![] bcast_S_S600000x1 (constantI S_ 32 0#32)))
      (cmpi .sle idx (broadcastInDim S600000x1 ![0, 1] bcast_S1x1_S600000x1_0_1 (broadcastInDim S1x1 ![1] bcast_S1_S1x1_1 (constantI S1 32 99999#32)))))
    (constantI S_ 1 1#1) reducesTo_S600000x1_S600000_d1 h_S_

/-- The kernel's row lookup: the table's rows at the column's numbers, a row failing the test replaced by the
    not-a-number word. -/
def lookup (x : FVec Ideal S100000x128 .f32) (idx : IVec S600000x1 32) : FVec Ideal S600000x128 .f32 :=
  select (broadcastInDim S600000x128 ![0] bcast_S600000_S600000x128_0 (isRow idx))
    (Host.gather gather_S100000x128_S600000x1_S600000x128_1_0_n_n_0_1_1128 x idx)
    (broadcastInDim S600000x128 ![] bcast_S_S600000x128 (constant S_ .f32 0x7FC00000#32))

set_option maxHeartbeats 2000000 in
/-- The source rows the region is entered with. -/
theorem V_src (c : Dev nD) :
    V m c main_v4 = lookup (m ((c : Thread nD τ).loc main_arg0)) (wrapped (srcNumbers (m ((c : Thread nD τ).loc main_arg1)))) := by
  dsimp only [V, V0]
  simp only [hostOps0, hostOps0_1, hostOps0_2, hostOps0_3, List.flatten_cons, List.flatten_nil, List.append_nil, List.cons_append, List.nil_append]
  after_results_simp
  simp only [TRef.toBuf, TRef.ofBuf, cast_eq]
  rfl

set_option maxHeartbeats 2000000 in
/-- The destination rows the region is entered with. -/
theorem V_dst (c : Dev nD) :
    V m c main_v5 = lookup (m ((c : Thread nD τ).loc main_arg0)) (wrapped (dstNumbers (m ((c : Thread nD τ).loc main_arg1)))) := by
  dsimp only [V, V0]
  simp only [hostOps0, hostOps0_1, hostOps0_2, hostOps0_3, List.flatten_cons, List.flatten_nil, List.append_nil, List.cons_append, List.nil_append]
  after_results_simp
  simp only [TRef.toBuf, TRef.ofBuf, cast_eq]
  rfl

set_option maxHeartbeats 2000000 in
/-- The matrix the region is entered with: the reference's transposed matrix. -/
theorem V_wt (c : Dev nD) :
    V m c main_v6 = Cert.ReferenceIdeal.Read.val_main_v18 (F := Ideal) (m ((c : Thread nD τ).loc main_arg2)) := by
  dsimp only [V, V0]
  simp only [hostOps0, hostOps0_1, hostOps0_2, hostOps0_3, List.flatten_cons, List.flatten_nil, List.append_nil, List.cons_append, List.nil_append]
  after_results_simp <;> rfl

end Cert.KernelIdeal.GatheredRows

end
-- ==== Proof.RowsInRange.lean ====
/-
  Under the precondition the kernel's two row lookups replace nothing, and the arrays the region is entered with are
  the reference's own gathers.

  The precondition's last conjunct says every entry x of the edge list satisfies −100000 ≤ x < 100000. Each row number
  the lookups use is such an entry, wrapped once when negative, hence in [0, 99999]; so the test "0 ≤ number ≤ 99999"
  is one on every row, its broadcast over the 128 lanes is one everywhere, and the selection keeps the gathered row.
-/
import proofs.«417569_j65601330479214_2_alg».proof.Proof.GatheredRows

noncomputable section

namespace Cert.KernelIdeal.GatheredRows

open Cert.KernelIdeal Cert.KernelIdeal.Gen Cert.EdgeScore
open Idealize.ShloMosaic Idealize.ShloMosaic.TcCoe Idealize.SL.Sem Idealize.ShloMosaic.StableHlo Idealize.ShloMosaic.ValueIdx

variable (m : (ℓ : Loc nD τ sig) → Buf (Elt Ideal) ℓ)

/-- A column of numbers that all pass the test is looked up with no row replaced. -/
theorem lookup_of_rows (x : FVec Ideal S100000x128 .f32) (idx : IVec S600000x1 32)
    (h : ∀ y, IntOp.cmpi .sge (idx y) 0#32 = 1#1 ∧ IntOp.cmpi .sle (idx y) 99999#32 = 1#1) :
    lookup x idx = Host.gather gather_S100000x128_S600000x1_S600000x128_1_0_n_n_0_1_1128 x idx := by
  have hrow : ∀ j, isRow idx j = 1#1 := fun j =>
    reduce_andi_of_all_one _ _ _ _ (fun _ => rfl) (fun y => by
      show IntOp.andi (IntOp.cmpi .sge (idx y) 0#32) (IntOp.cmpi .sle (idx y) 99999#32) = 1#1
      rw [(h y).1, (h y).2]; rfl) j
  funext i
  unfold lookup
  rw [select_apply]
  have hi : broadcastInDim S600000x128 ![0] bcast_S600000_S600000x128_0 (isRow idx) i = 1#1 := hrow _
  rw [hi, select_one]

/-- Numbers in [−100000, 100000), wrapped, all pass the test. -/
theorem wrapped_rows (v : IVec S600000 32)
    (hv : ∀ i, IntOp.cmpi .sge (v i) 4294867296#32 = 1#1 ∧ IntOp.cmpi .slt (v i) 100000#32 = 1#1) (y : S600000x1.Idx) :
    IntOp.cmpi .sge (wrapped v y) 0#32 = 1#1 ∧ IntOp.cmpi .sle (wrapped v y) 99999#32 = 1#1 :=
  wrapped_in_range (v _) (hv _).1 (hv _).2

/-- Each source row number is an entry of the edge list. -/
theorem srcNumbers_entry (e : IVec S2x600000 32) (i : S600000.Idx) : ∃ j, srcNumbers e i = e j := ⟨_, rfl⟩
/-- Each destination row number is an entry of the edge list. -/
theorem dstNumbers_entry (e : IVec S2x600000 32) (i : S600000.Idx) : ∃ j, dstNumbers e i = e j := ⟨_, rfl⟩

instance : Subsingleton Cert.Pre_finite_inputs.S_.Idx := ⟨fun a b => funext fun d => d.elim0⟩

/-- THE PRECONDITION, read at an entry of the edge list: −100000 ≤ x < 100000, signed. -/
theorem edges_in_range (h : Cert.Pre_KernelIdeal m) (c : Dev nD) (i : S2x600000.Idx) :
    IntOp.cmpi .sge (m ((c : Thread nD τ).loc main_arg1) i) 4294867296#32 = 1#1
      ∧ IntOp.cmpi .slt (m ((c : Thread nD τ).loc main_arg1) i) 100000#32 = 1#1 := by
  have e := congrFun (h c) ix0
  dsimp only [Cert.Pre_finite_inputs.fn] at e
  obtain ⟨-, h14⟩ := IntOp.andi_eq_one.1 e
  exact IntOp.andi_eq_one.1 (Host.reduce_andi_all _ _ _ _ _ h14 i)

/-- The source rows the region is entered with are the reference's first gather. -/
theorem src_rows (h : Cert.Pre_KernelIdeal m) (c : Dev nD) :
    V m c main_v4 = Cert.ReferenceIdeal.Read.val_main_v8 (F := Ideal) (m ((c : Thread nD τ).loc main_arg0)) (m ((c : Thread nD τ).loc main_arg1)) := by
  rw [V_src, lookup_of_rows _ _ (wrapped_rows _ fun i => by
    obtain ⟨j, hj⟩ := srcNumbers_entry (m ((c : Thread nD τ).loc main_arg1)) i
    rw [hj]; exact edges_in_range m h c j)]
  rfl

/-- The destination rows are its second gather. -/
theorem dst_rows (h : Cert.Pre_KernelIdeal m) (c : Dev nD) :
    V m c main_v5 = Cert.ReferenceIdeal.Read.val_main_v17 (F := Ideal) (m ((c : Thread nD τ).loc main_arg0)) (m ((c : Thread nD τ).loc main_arg1)) := by
  rw [V_dst, lookup_of_rows _ _ (wrapped_rows _ fun i => by
    obtain ⟨j, hj⟩ := dstNumbers_entry (m ((c : Thread nD τ).loc main_arg1)) i
    rw [hj]; exact edges_in_range m h c j)]
  rfl

end Cert.KernelIdeal.GatheredRows

end
-- ==== Proof.BlockScore.lean ====
/-
  One grid point's block of the kernel, read at a row.

  The body loads a 6000-row block zd of destination rows, the whole 128 × 128 matrix wt, and the matching block zs of
  source rows, and stores the column  logistic ( Σ_k zs[p, k] · (zd · wt)[p, k] ).  On the extended reals the narrowing of
  zd and wt before the product is the identity, the product into a zero accumulator is the plain sum over the contracted
  axis, and the lane reduction from zero is the plain sum over k: row p of the stored column is the score formula on
  the block's rows.
-/
import proofs.«417569_j65601330479214_2_alg».proof.Proof.Gen.KernelIdeal.Skeleton
import proofs.«417569_j65601330479214_2_alg».proof.Proof.Score
import Idealize.ShloMosaic.Lib.Pipeline.Value
import Idealize.ShloMosaic.Lib.ValueIdx
import Idealize.ShloMosaic.PureOps.Ideal.Laws

noncomputable section

namespace Cert.KernelIdeal.BlockScore

open Cert.KernelIdeal Cert.KernelIdeal.Gen Cert.EdgeScore
open Idealize.ShloMosaic Idealize.ShloMosaic.ValueIdx

/-- The product's left operand index, row axis: the output's row. -/
theorem lhs_0 (i : S6000x128.Idx) (q : dot_S6000x128_S128x128_S6000x128_1_0_0_1_n_n.contr.Idx) :
    (dot_S6000x128_S128x128_S6000x128_1_0_0_1_n_n.lhsIdx i q 0).val = (i 0).val := by
  unfold DotDims.lhsIdx
  rw [dif_neg (show ¬(0 : Fin S6000x128.rank) ∈ dot_S6000x128_S128x128_S6000x128_1_0_0_1_n_n.lhsBatch by decide), dif_pos (show (0 : Fin S6000x128.rank) ∈ dot_S6000x128_S128x128_S6000x128_1_0_0_1_n_n.lhsNonContracting by decide)]
  rfl
/-- Left operand, column axis: the contraction index. -/
theorem lhs_1 (i : S6000x128.Idx) (q : dot_S6000x128_S128x128_S6000x128_1_0_0_1_n_n.contr.Idx) :
    (dot_S6000x128_S128x128_S6000x128_1_0_0_1_n_n.lhsIdx i q 1).val = (q ⟨0, by decide⟩).val :=
  dot_S6000x128_S128x128_S6000x128_1_0_0_1_n_n.lhsIdx_val_of_single rfl i q
/-- Right operand, row axis: the contraction index. -/
theorem rhs_0 (i : S6000x128.Idx) (q : dot_S6000x128_S128x128_S6000x128_1_0_0_1_n_n.contr.Idx) :
    (dot_S6000x128_S128x128_S6000x128_1_0_0_1_n_n.rhsIdx i q 0).val = (q ⟨0, by decide⟩).val :=
  dot_S6000x128_S128x128_S6000x128_1_0_0_1_n_n.rhsIdx_val_of_single rfl i q
/-- Right operand, column axis: the output's column. -/
theorem rhs_1 (i : S6000x128.Idx) (q : dot_S6000x128_S128x128_S6000x128_1_0_0_1_n_n.contr.Idx) :
    (dot_S6000x128_S128x128_S6000x128_1_0_0_1_n_n.rhsIdx i q 1).val = (i 1).val := by
  unfold DotDims.rhsIdx
  rw [dif_neg (show ¬(1 : Fin S128x128.rank) ∈ dot_S6000x128_S128x128_S6000x128_1_0_0_1_n_n.rhsBatch by decide), dif_pos (show (1 : Fin S128x128.rank) ∈ dot_S6000x128_S128x128_S6000x128_1_0_0_1_n_n.rhsNonContracting by decide)]
  rfl

/-- The block product into a zero accumulator at (p, k) is Σ_j l[p, j] · r[j, k], whatever the operands' float formats. -/
theorem matmul_at {φ₁ φ₂ : FTy} (l : FVec Ideal S6000x128 φ₁) (r : FVec Ideal S128x128 φ₂) (p : Fin 6000) (k : Fin 128) :
    matmul dot_S6000x128_S128x128_S6000x128_1_0_0_1_n_n none l r (constant S6000x128 .f32 0x00000000#32) (ix2 p k)
      = ∑ j : Fin 128, l (ix2 p j) * r (ix2 j k) := by
  refine (Ideal.matmul_constant_zero_apply dot_S6000x128_S128x128_S6000x128_1_0_0_1_n_n none l r (ix2 p k)).trans ?_
  rw [← Equiv.sum_comp (ValueIdx.contrEquiv1 dot_S6000x128_S128x128_S6000x128_1_0_0_1_n_n 128 rfl rfl).symm]
  refine Finset.sum_congr rfl fun j _ => ?_
  have hj := ValueIdx.contrEquiv1_symm_val dot_S6000x128_S128x128_S6000x128_1_0_0_1_n_n 128 rfl rfl j
  have el : dot_S6000x128_S128x128_S6000x128_1_0_0_1_n_n.lhsIdx (ix2 p k) ((ValueIdx.contrEquiv1 dot_S6000x128_S128x128_S6000x128_1_0_0_1_n_n 128 rfl rfl).symm j) = ix2 p j := funext fun a => Fin.ext (by
    match a with
    | ⟨0, _⟩ => exact lhs_0 _ _
    | ⟨1, _⟩ => exact (lhs_1 _ _).trans hj)
  have er : dot_S6000x128_S128x128_S6000x128_1_0_0_1_n_n.rhsIdx (ix2 p k) ((ValueIdx.contrEquiv1 dot_S6000x128_S128x128_S6000x128_1_0_0_1_n_n 128 rfl rfl).symm j) = ix2 j k := funext fun a => Fin.ext (by
    match a with
    | ⟨0, _⟩ => exact (rhs_0 _ _).trans hj
    | ⟨1, _⟩ => exact rhs_1 _ _)
  rw [el, er]

/-- The lane sum's k-th source index over row p is (p, k). -/
theorem lane_idx (p : Fin 6000) (k : Fin 128) : reduces_S6000x128_S6000.lift (ix1 p) k = ix2 p k :=
  funext fun a => Fin.ext (by match a with | ⟨0, _⟩ => rfl | ⟨1, _⟩ => rfl)

/-- Row p of the stored column. -/
theorem pay_apply (zd : FVec Ideal S6000x128 .f32) (wt : FVec Ideal S128x128 .f32) (zs : FVec Ideal S6000x128 .f32) (p : Fin 6000) :
    k0_pay1 (F := Ideal) zd wt zs (ix2 p (0 : Fin 1))
      = Ideal.logistic (∑ k : Fin 128, zs (ix2 p k) * ∑ j : Fin 128, zd (ix2 p j) * wt (ix2 j k)) := by
  unfold k0_pay1
  simp only [shapeCast_self]
  show Ideal.logistic (shapeCast S6000x1 _ shapeCasts_S6000_S6000x1 (ix2 p (0 : Fin 1))) = _
  refine congrArg Ideal.logistic ?_
  refine (shapeCast_apply _ shapeCasts_S6000_S6000x1 (ix2 p (0 : Fin 1)) (ix1 p) (by
    rw [Shape.rowMajor_val_one, Shape.rowMajor_val_two]; show p.val = p.val * 1 + 0; omega)).trans ?_
  refine (Ideal.multiReduction_add_single _ 0x00000000#32 reduces_S6000x128_S6000 (.inl rfl) rfl (ix1 p)).trans ?_
  refine Finset.sum_congr rfl ?_
  intro (k : Fin 128) _
  rw [lane_idx p k]
  exact congrArg (zs (ix2 p k) * ·) (matmul_at _ _ p k)

end Cert.KernelIdeal.BlockScore

end
-- ==== Proof.ArrayScore.lean ====
/-
  From the blocks to the whole result.

  The grid has 100 points; point t stages rows 6000·t … 6000·t + 5999 of the two gathered arrays, the whole transposed
  matrix, and writes back rows 6000·t … 6000·t + 5999 of a [600000, 1] column. Row p of that block is the score of edge
  6000·t + p (the block formula, with each block row read back as the array's row), so the written blocks are the
  restrictions of one column, the scores of all edges; the 100 blocks tile the column, so the column ends holding it;
  and the program's last operation only re-lays the column as a vector.
-/
import proofs.«417569_j65601330479214_2_alg».proof.Proof.Gen.KernelIdeal.Frame
import proofs.«417569_j65601330479214_2_alg».proof.Proof.BlockScore
import Idealize.ShloMosaic.Lib.Pipeline.Value
import Idealize.ShloMosaic.Lib.StableHlo.Run
import Idealize.ShloMosaic.PureOps.Ideal

noncomputable section

namespace Cert.KernelIdeal.ArrayScore

open Cert.KernelIdeal Cert.KernelIdeal.Gen Cert.KernelIdeal.BlockScore Cert.EdgeScore
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Where each window's block sits at point t: the three row windows at block row t, the matrix window at the origin. -/
theorem block_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A block whose rows are rows r of the arrays stores the score of edge r in its row p. -/
theorem block_row (A B : FVec Ideal S600000x128 .f32) (W : FVec Ideal S128x128 .f32)
    (zs zd : FVec Ideal S6000x128 .f32) (wt : FVec Ideal S128x128 .f32) (r : Fin 600000) (p : Fin 6000)
    (hs : ∀ k : Fin 128, zs (ix2 p k) = A (ix2 r k)) (hd : ∀ j : Fin 128, zd (ix2 p j) = B (ix2 r j))
    (hw : ∀ (j k : Fin 128), wt (ix2 j k) = W (ix2 j k)) :
    k0_pay1 (F := Ideal) zd wt zs (ix2 p (0 : Fin 1)) = score A B W r := by
  rw [pay_apply]
  unfold score
  simp only [hs, hd, hw]

/-- A point's stored column, from blocks that are the arrays' rows at that point, is the point's block of the column of
    all scores. Stated over any arrays A, B, W. -/
theorem block_col (A B : FVec Ideal S600000x128 .f32) (W : FVec Ideal S128x128 .f32) (t : Fin cfg0.N)
    (zs zd : FVec Ideal S6000x128 .f32) (wt : FVec Ideal S128x128 .f32)
    (hs : ∀ y, zs y = A (((cfg0.win 0).blk t).view.emb y))
    (hd : ∀ y, zd y = B (((cfg0.win 1).blk t).view.emb y))
    (hw : ∀ y, wt y = W (((cfg0.win 2).blk t).view.emb y)) :
    k0_pay1 (F := Ideal) zd wt zs = ((cfg0.win 3).blk t).view.read (Elt Ideal) (scoresCol A B W) := by
  obtain ⟨e00, e01, e10, e11, e20, e21, e30, e31⟩ := block_rows t
  have ht : t.val < 100 := lt_of_lt_of_eq t.isLt N_0
  funext y
  obtain ⟨p, q, rfl⟩ : ∃ (p : Fin 6000) (q : Fin 1), y = ix2 p q := ⟨y 0, y 1, eq_ix2 y⟩
  obtain rfl : q = 0 := Fin.ext (by have := q.isLt; omega)
  have hp := p.isLt
  refine (block_row A B W zs zd wt ⟨t.val * 6000 + p.val, by omega⟩ p ?_ ?_ ?_).trans ?_
  · intro k
    rw [hs]
    refine congrArg A (funext fun a => Fin.ext ?_)
    match a with
    | ⟨0, _⟩ => show win0_0.index t (0 : Fin 2) * 6000 + 1 * p.val = t.val * 6000 + p.val; rw [e00]; omega
    | ⟨1, _⟩ => show win0_0.index t (1 : Fin 2) * 128 + 1 * k.val = k.val; rw [e01]; omega
  · intro j
    rw [hd]
    refine congrArg B (funext fun a => Fin.ext ?_)
    match a with
    | ⟨0, _⟩ => show win0_1.index t (0 : Fin 2) * 6000 + 1 * p.val = t.val * 6000 + p.val; rw [e10]; omega
    | ⟨1, _⟩ => show win0_1.index t (1 : Fin 2) * 128 + 1 * j.val = j.val; rw [e11]; omega
  · intro j k
    rw [hw]
    refine congrArg W (funext fun a => Fin.ext ?_)
    match a with
    | ⟨0, _⟩ => show win0_2.index t (0 : Fin 2) * 128 + 1 * j.val = j.val; rw [e20]; omega
    | ⟨1, _⟩ => show win0_2.index t (1 : Fin 2) * 128 + 1 * k.val = k.val; rw [e21]; omega
  · show score A B W _ = score A B W ((((cfg0.win 3).blk t).view.emb (ix2 p (0 : Fin 1))) 0)
    refine congrArg (score A B W) (Fin.ext ?_)
    show t.val * 6000 + p.val = win0_3.index t (0 : Fin 2) * 6000 + 1 * p.val
    rw [e30]; omega

/-- WHAT POINT t WRITES BACK is block t of the column of all scores. -/
theorem flushed_eq (c : Dev nD) (t : Fin cfg0.N) :
    (dats m 0 c).flushed 3 t
      = ((cfg0.win 3).blk t).view.read (Elt Ideal) (scoresCol (V m c main_v4) (V m c main_v5) (V m c main_v6)) := by
  show (cfg0.win 3).cut (grid0.coords t) ((dats m 0 c).after 3 t) = _
  rw [after0_3]
  unfold out0_3
  rw [View.canon_unit_zero origin]
  simp only [View.ld_unit_zero (S := S6000x128) origin, View.ld_unit_zero (S := S128x128) origin]
  exact block_col (V m c main_v4) (V m c main_v5) (V m c main_v6) t (iblk m c 0 t) (iblk m c 1 t) (iblk m c 2 t)
    (fun _ => rfl) (fun _ => rfl) (fun _ => rfl)

/-- An index of the column is in point t's block iff each coordinate is in the block's range on its axis. -/
theorem mem_block (t : Fin cfg0.N) (i : S600000x1.Idx) :
    i ∈ ((cfg0.win 3).blk t).view.set ↔ ∀ a : Fin 2, win0_3.index t a * S6000x1.size a ≤ (i a).val ∧ (i a).val < win0_3.index t a * S6000x1.size a + S6000x1.size a := by
  show i ∈ ((View.whole main_v7).slice (win0_3.rect t)).set ↔ _
  rw [View.set_slice_whole, Rect.mem_set_unit]
  exact Iff.rfl

/-- Every row of the column is in the block of the point its row number divided by 6000 names. -/
theorem covered (i : S600000x1.Idx) : ∃ t : Fin cfg0.N, (cfg0.win 3).flush t = true ∧ i ∈ ((cfg0.win 3).blk t).view.set := by
  have hi0 : (i 0).val < 600000 := (i 0).isLt
  have hi1 : (i 1).val < 1 := (i 1).isLt
  have hN : cfg0.N = 100 := N_0
  refine ⟨⟨(i 0).val / 6000, by rw [hN]; omega⟩, flush0_3 _, ?_⟩
  rw [mem_block]
  obtain ⟨-, -, -, -, -, -, e30, e31⟩ := block_rows ⟨(i 0).val / 6000, by rw [hN]; omega⟩
  intro a
  match a with
  | ⟨0, _⟩ =>
    show win0_3.index _ (0 : Fin 2) * 6000 ≤ (i 0).val ∧ (i 0).val < win0_3.index _ (0 : Fin 2) * 6000 + 6000
    rw [e30]; show (i 0).val / 6000 * 6000 ≤ (i 0).val ∧ (i 0).val < (i 0).val / 6000 * 6000 + 6000; omega
  | ⟨1, _⟩ =>
    show win0_3.index _ (1 : Fin 2) * 1 ≤ (i 1).val ∧ (i 1).val < win0_3.index _ (1 : Fin 2) * 1 + 1
    rw [e31]; omega

/-- THE COLUMN after the run: the scores of all edges, from the arrays the region was entered with. -/
theorem column (c : Dev nD) :
    (dats m 0 c).arrAt 3 cfg0.N = scoresCol (V m c main_v4) (V m c main_v5) (V m c main_v6) :=
  (dats m 0 c).arrAt_eq_of_cover 3 _ (fun t _ => flushed_eq m c t) covered

end Cert.KernelIdeal.ArrayScore

end
-- ==== Proof.KernelRun.lean ====
/-
  The kernel's run, with its result named.

  After the region the program re-lays the [600000, 1] column as a vector of 600000 entries, entry r being the column's
  row r: the scores of all edges, from the arrays the region was entered with.
-/
import proofs.«417569_j65601330479214_2_alg».proof.Proof.ArrayScore

noncomputable section

namespace Cert.KernelIdeal.KernelRun

open Cert.KernelIdeal Cert.KernelIdeal.Gen Cert.KernelIdeal.ArrayScore Cert.EdgeScore
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- The column of scores re-laid as a vector is the vector of scores. -/
theorem col_as_vec (A B : FVec Ideal S600000x128 .f32) (W : FVec Ideal S128x128 .f32) :
    shapeCast S600000 (scoresCol A B W) shapeCasts_S600000x1_S600000 = scores A B W := by
  funext i
  obtain ⟨r, rfl⟩ : ∃ r : Fin 600000, i = ix1 r := ⟨i 0, eq_ix1 i⟩
  exact shapeCast_apply (scoresCol A B W) shapeCasts_S600000x1_S600000 (ix1 r) (ix2 r (0 : Fin 1)) (by
    rw [Shape.rowMajor_val_two, Shape.rowMajor_val_one]; show r.val * 1 + 0 = r.val; omega)

/-- What the result buffer holds after the program's last operation. -/
theorem result_eq (c : Dev nD) :
    Pipeline.afterTail₀ cfgs (dats m) 0 (V0 m) [hostOps1] c main_v8
      = scores (V m c main_v4) (V m c main_v5) (V m c main_v6) := by
  unfold Pipeline.afterTail₀
  show StableHlo.after hostOps1 _ (Proc.devRef .tc main_v8) = _
  after_results
  have hcol : Pipeline.withArrays (cfgs 0).spec c (V0 m c) (fun w => (dats m 0 c).arrAt w (cfgs 0).N) (Proc.devRef .tc main_v7)
      = scoresCol (V m c main_v4) (V m c main_v5) (V m c main_v6) :=
    (Pipeline.withArrays_arr spec0 launch0.win.arr_inj c _ _ 3).trans (column m c)
  rw [hcol]
  exact col_as_vec _ _ _

/-- Every fair execution of the kernel's program ends with the result buffer at the scores of all edges, taken from the
    arrays the region was entered with, and the three arguments as they were. -/
theorem run : θ_run defs (onTc (τ := τ) (main (F := Ideal))) ⟨m, fun _ => 0, ρ⟩ fun r => ∀ c : Dev nD,
      r.2.mem ((c.tc : Thread nD τ).loc main_v8) = scores (V m c main_v4) (V m c main_v5) (V m c main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelRun

end
-- ==== Proof.lean ====
/-
  The certificate: the tiled kernel and the plain reference compute the same edge scores.

  Both programs gather two rows of the node table per edge, form  Σ_k a[k] · (Σ_j b[j] · Wᵀ[j, k])  and apply the logistic.
  The kernel does it 6000 edges at a time, with the inner sum as a matrix product on narrowed operands and the outer one
  as a lane reduction; on the extended reals narrowing is the identity and both sums are the plain sums, so the two
  results are one function of the gathered rows (Score, RefScore, BlockScore, ArrayScore, KernelRun).

  The two programs differ only outside the table: the kernel's lookup replaces a row whose wrapped number is not in
  [0, 99999] by the not-a-number word, the reference's gather clamps it. The precondition therefore asks, beside finite
  float inputs, that every entry of the edge list lie in [−100000, 100000) (the range in which the reference's own indexing
  is defined, a negative number counting from the end); then nothing is replaced (GatheredRows, RowsInRange).

  The frames of the two kernel programs are the generated ones; the reference's frame is its generated run with the
  result dropped; the idealization rewrote nothing, so the preservation claim is trivial.
-/
import proofs.«417569_j65601330479214_2_alg».proof.Defs
import proofs.«417569_j65601330479214_2_alg».proof.Proof.Gen.Kernel
import proofs.«417569_j65601330479214_2_alg».proof.Proof.Gen.Kernel.Skeleton
import proofs.«417569_j65601330479214_2_alg».proof.Proof.Gen.Kernel.Launch
import proofs.«417569_j65601330479214_2_alg».proof.Proof.Gen.Kernel.Points
import proofs.«417569_j65601330479214_2_alg».proof.Proof.Gen.Kernel.Frame
import proofs.«417569_j65601330479214_2_alg».proof.Proof.Gen.KernelIdeal
import proofs.«417569_j65601330479214_2_alg».proof.Proof.Gen.KernelIdeal.Skeleton
import proofs.«417569_j65601330479214_2_alg».proof.Proof.Gen.KernelIdeal.Launch
import proofs.«417569_j65601330479214_2_alg».proof.Proof.Gen.KernelIdeal.Points
import proofs.«417569_j65601330479214_2_alg».proof.Proof.Gen.KernelIdeal.Frame
import proofs.«417569_j65601330479214_2_alg».proof.Proof.Gen.ReferenceIdeal
import proofs.«417569_j65601330479214_2_alg».proof.Proof.Gen.Pre_finite_inputs
import proofs.«417569_j65601330479214_2_alg».proof.Proof.Gen.ReferenceIdeal.Run
import proofs.«417569_j65601330479214_2_alg».proof.Proof.Gen.ReferenceIdeal.Read
import proofs.«417569_j65601330479214_2_alg».proof.Proof.RefScore
import proofs.«417569_j65601330479214_2_alg».proof.Proof.RowsInRange
import proofs.«417569_j65601330479214_2_alg».proof.Proof.KernelRun
import Idealize.ShloMosaic.Adequacy
import Idealize.ShloMosaic.Init

noncomputable section

namespace Cert.Proof

open Idealize.ShloMosaic Idealize.SL.Sem Cert.EdgeScore

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, with every edge-list entry in [−100000, 100000), both programs end with
    the scores of all edges, computed from the reference's gathers of the kernel's arguments. -/
theorem algebraic : Cert.algebraic_KernelIdeal_ReferenceIdeal := by
  intro m ρ m' ρ' hpre hagree
  refine ⟨fun c => scores
      (Cert.ReferenceIdeal.Read.val_main_v8 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.ReferenceIdeal.Read.val_main_v17 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.ReferenceIdeal.Read.val_main_v18 (F := Ideal) (m ((c.tc : Thread Cert.KernelIdeal.nD Cert.KernelIdeal.τ).loc Cert.KernelIdeal.main_arg2))), ?_, ?_⟩
  · refine (θ_run Cert.KernelIdeal.defs _ _).mono (fun r h c => ⟨?_, (h c).2⟩) (Cert.KernelIdeal.KernelRun.run m ρ)
    rw [(h c).1, Cert.KernelIdeal.GatheredRows.src_rows m hpre c, Cert.KernelIdeal.GatheredRows.dst_rows m hpre c,
      Cert.KernelIdeal.GatheredRows.V_wt m c]
  · refine (θ_run Cert.ReferenceIdeal.defs _ _).mono (fun r h c => ⟨?_, (h c).2⟩)
      (Cert.ReferenceIdeal.Value.run (F := Ideal) m' ρ')
    rw [(h c).1, Cert.ReferenceIdeal.Read.val_main_v27_eq, Cert.ReferenceIdeal.RefScore.result_eq,
      (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
